-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S1x16384 : Shape := ⟨2, ![1, 16384]⟩
abbrev S8192x16384 : Shape := ⟨2, ![8192, 16384]⟩
abbrev S2048x4096 : Shape := ⟨2, ![2048, 4096]⟩
abbrev S512x4096 : Shape := ⟨2, ![512, 4096]⟩
abbrev S1x512 : Shape := ⟨2, ![1, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S8192x4096, .bf16⟩
  | .hbm, ⟨4, _⟩ => ⟨S1x16384, .f32⟩
  | .hbm, ⟨5, _⟩ => ⟨S8192x16384, .f32⟩
  | .local _ .vmem, ⟨0, _⟩ => ⟨S2048x4096, .bf16⟩
  | .local _ .vmem, ⟨1, _⟩ => ⟨S2048x4096, .bf16⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x4096_S512x4096_S2048x512_1_1_0_0_n_n_wf : DotDims.WF S2048x4096 S512x4096 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x16384.size a
  hwx0_3 : ∀ i : grid0.Coords, EltTy.bits .f32 = 32 ∨ (Rect.block (s := S8192x16384) S2048x512.size (cc0_transform_3 i) (hinb0_3 i)).WholeWords (EltTy.packing .f32)

variable [Facts₀]

def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf

abbrev win0_0 : Pipeline.Window sig grid0 :=
  Pipeline.Window.ofSpec (Memref.whole main_v0) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S4096x16384, .f32⟩
  | .hbm, ⟨4, _⟩ => ⟨S8192x16384, .f32⟩
  | .hbm, ⟨5, _⟩ => ⟨S1x16384, .f32⟩
  | .hbm, ⟨6, _⟩ => ⟨S8192x16384, .f32⟩
  | .hbm, ⟨7, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S16384x4096_S4096x16384_1_0 : S16384x4096.Transposes [1, 0] S4096x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.Dense.lean ====
/-
  The dense layer as ONE function of its three arrays, over the extended reals: entry (r, c) of the output is the
  inner product of row r of the activations with row c of the weight matrix, plus the bias at c,

      dense x w b (r, c) = (∑ k, x (r, k) · w (c, k)) + b c.

  Both programs contract the LAST axis of both operands ("rows against rows": the weight matrix is stored output
  feature by output feature), so the module also reads a matrix product with those dimension numbers, taken into the
  zero accumulator, at an entry: it is that inner product. Nothing here needs the entries to be finite: a sum over a
  finite index set of extended reals is defined whatever its terms, and no term is moved across it.
-/
import Idealize.ShloMosaic.Lib.ValueIdx
import Idealize.ShloMosaic.PureOps.Ideal.Laws

noncomputable section

namespace Cert.Dense

open Idealize.ShloMosaic Idealize.ShloMosaic.ValueIdx

/-- The layer: `(∑ k, x (r, k) · w (c, k)) + b c` at the output entry `(r, c)`. -/
def dense (x : FVec Ideal ⟨2, ![8192, 4096]⟩ .f32) (w : FVec Ideal ⟨2, ![16384, 4096]⟩ .f32)
    (b : FVec Ideal ⟨1, ![16384]⟩ .f32) : FVec Ideal ⟨2, ![8192, 16384]⟩ .f32 :=
  fun i => (∑ k : Fin 4096, x (ix2 (i 0) k) * w (ix2 (i 1) k)) + b (ix1 (i 1))

/-! ## A product of rows against rows, read at an entry

For the dimension numbers that contract axis 1 of both operands, the left operand is read at (output row,
contraction position) and the right operand at (output column, contraction position). -/

section RowsByRows
variable {m k n : Nat}

/-- The left operand's row is the output's row. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column is the contraction position. -/
theorem lhs_col (i : (⟨2, ![m, n]⟩ : Shape).Idx) (q : (DotDims.transposedRhs m k n).contr.Idx) :
    ((DotDims.transposedRhs m k n).lhsIdx i q 1).val = (q ⟨0, Nat.one_pos⟩).val :=
  (DotDims.transposedRhs m k n).lhsIdx_val_of_single rfl i q

/-- The right operand's row is the output's column. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column is the contraction position. -/
theorem rhs_col (i : (⟨2, ![m, n]⟩ : Shape).Idx) (q : (DotDims.transposedRhs m k n).contr.Idx) :
    ((DotDims.transposedRhs m k n).rhsIdx i q 1).val = (q ⟨0, Nat.one_pos⟩).val :=
  (DotDims.transposedRhs m k n).rhsIdx_val_of_single rfl i q

/-- The product of an m×k matrix with the rows of an n×k matrix, into the zero accumulator, at `(a, b)`: the inner
    product of row `a` of the first with row `b` of the second. -/
theorem matmul_rowsByRows_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul _ prec A B (constant _ .f32 0x00000000#32) (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a b) ((contrEquiv1 (DotDims.transposedRhs m k n) k rfl rfl).symm c) = ix2 b c :=
    funext fun ax => Fin.ext (by
      match ax with
      | ⟨0, _⟩ => exact rhs_row _ _
      | ⟨1, _⟩ => exact (rhs_col _ _).trans hc)
  rw [el, er]

end RowsByRows

end Cert.Dense

end
-- ==== Proof.Reference.lean ====
/-
  The reference computes the dense layer. Its five operations — the weight matrix transposed, the product of the
  activations with that transpose contracted over the shared axis, the bias laid out as a row and repeated down the
  rows, the sum — read at an output entry (r, c) give

      (∑ k, x (r, k) · wᵀ (k, c)) + b c,   with wᵀ (k, c) = w (c, k),

  which is `dense x w b (r, c)` term by term: the transpose only renames which coordinate of `w` the contraction
  position lands on.
-/
import proofs.«149816_g33887291965657_cont_8to1_b_748_4_alg».proof.Proof.Gen.ReferenceIdeal.Read
import proofs.«149816_g33887291965657_cont_8to1_b_748_4_alg».proof.Proof.Dense

noncomputable section

namespace Cert.ReferenceIdeal.IsDense

open Cert.ReferenceIdeal Cert.ReferenceIdeal.Read Idealize.ShloMosaic Idealize.ShloMosaic.ValueIdx Cert.Dense

/-- The activations are read at (output row, contraction position). -/
theorem lhs_at (i : S8192x16384.Idx) (k : Fin 4096) : lidx_main_v1 i k = ix2 (i 0) k :=
  funext fun a => by match a with | ⟨0, _⟩ => rfl | ⟨1, _⟩ => rfl

/-- Through the transpose, the weights are read at (output column, contraction position). -/
theorem rhs_at (i : S8192x16384.Idx) (k : Fin 4096) : idx_main_v0 (ridx_main_v1 i k) = ix2 (i 1) k :=
  funext fun a => by match a with | ⟨0, _⟩ => rfl | ⟨1, _⟩ => rfl

/-- Through the two broadcasts, the bias is read at the output column. -/
theorem bias_at (i : S8192x16384.Idx) : idx_main_v2 (idx_main_v3 i) = ix1 (i 1) :=
  funext fun a => by match a with | ⟨0, _⟩ => rfl

/-- The reference's result, as extended reals, is the dense layer of its three arguments. -/
theorem val_eq_dense (x : (⟨S8192x4096, .f32⟩ : BufTy).Contents (Elt Ideal)) (w : (⟨S16384x4096, .f32⟩ : BufTy).Contents (Elt Ideal))
    (b : (⟨S16384, .f32⟩ : BufTy).Contents (Elt Ideal)) : val_main_v4 (F := Ideal) x w b = dense x w b := by
  funext i
  rw [val_main_v4_apply, val_main_v1_apply, val_main_v3_apply, val_main_v2_apply]
  simp only [val_main_v0_apply, lhs_at, rhs_at, bias_at]
  rfl

end Cert.ReferenceIdeal.IsDense

end
-- ==== Proof.Body.lean ====
/-
  One grid point's arithmetic, read at an entry of the output block. The body loads a 2048×4096 block of the
  activations, a 512×4096 block of the weights and a 1×512 block of the bias, multiplies the first by the rows of the
  second into a zero accumulator and adds the bias row repeated down the 2048 rows. Over the extended reals the
  narrowing of the weights to the short float format is the identity and the two shape casts are casts to the same
  shape, so entry (p, q) of the block the body stores is

      (∑ k, xb (p, k) · wb (q, k)) + bb (0, q).
-/
import proofs.«149816_g33887291965657_cont_8to1_b_748_4_alg».proof.Proof.Gen.KernelIdeal.Skeleton
import proofs.«149816_g33887291965657_cont_8to1_b_748_4_alg».proof.Proof.Dense
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Dense

/-- The body's stored value at (p, q): the inner product of row p of the activation block with row q of the weight
    block, plus the bias block at q. -/
theorem pay_apply (wb : Vec Ideal S512x4096 .f32) (xb : Vec Ideal S2048x4096 .bf16) (bb : Vec Ideal S1x512 .f32)
    (p : Fin 2048) (q : Fin 512) :
    k0_pay1 (F := Ideal) wb xb bb (ix2 p q) = (∑ k : Fin 4096, xb (ix2 p k) * wb (ix2 q k)) + bb (ix2 (0 : Fin 1) q) := by
  unfold k0_pay1
  rw [addf_apply, shapeCast_self, shapeCast_self, broadcastTo_1b_ab_apply]
  congr 1
  exact matmul_rowsByRows_apply (m := 2048) (k := 4096) (n := 512) none xb (truncf .bf16 wb bitsLt_bf16_f32) p q

end Cert.KernelIdeal.Body

end
-- ==== Proof.Whole.lean ====
/-
  From the grid's blocks to the whole output array. The 4 × 32 grid points tile the 8192 × 16384 output with
  2048 × 512 blocks: point (g, h) reads rows 2048·g … of the activations (all 4096 columns), rows 512·h … of the
  weights (all 4096 columns) and columns 512·h … of the bias row, and writes back the block at (2048·g, 512·h).
  Entry (p, q) of what it writes is the body's inner product plus bias, which is `dense` of the three ARGUMENT arrays
  at the array entry (2048·g + p, 512·h + q): the activations the region finds were narrowed on the host to the
  short float format, the identity over the extended reals, and the bias row it finds is the bias viewed as one row.
  Every entry of the output lies in the block of the point (row / 2048, column / 512), so after the run the output
  array is `dense` of the arguments, entry by entry.
-/
import proofs.«149816_g33887291965657_cont_8to1_b_748_4_alg».proof.Proof.Gen.KernelIdeal.Value
import proofs.«149816_g33887291965657_cont_8to1_b_748_4_alg».proof.Proof.Body
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Dense
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the region finds -/

/-- The activations as the region finds them: narrowed to the short format on the host, which over the extended
    reals changes nothing. -/
theorem found_x (c : Dev nD) : (V m c main_v0 : S8192x4096.Idx → EReal) = m ((c : Thread nD τ).loc main_arg0) := by
  dsimp only [Gen.V, Gen.hostOps0]; after_results; rfl

/-- The bias as the region finds it: the bias vector viewed as one row. -/
theorem found_b (c : Dev nD) : (V m c main_v1 : S1x16384.Idx → EReal)
    = shapeCast S1x16384 (m ((c : Thread nD τ).loc main_arg2)) shapeCasts_S16384_S1x16384 := by
  dsimp only [Gen.V, Gen.hostOps0]; after_results; rfl

/-! ## Which block each window holds at a point -/

/-- Over the 128 grid points: the activation block moves with the output's row block and spans all columns; the weight
    block moves with the output's column block and spans all columns; the bias block moves with the output's column
    block. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every (row block, column block) of the output is some point's. -/
theorem block_onto : ∀ (g : Fin 4) (h : Fin 32), ∃ t : Fin cfg0.N, win0_3.index t = ![g.val, h.val] :=
  (by decide +kernel : ∀ (g : Fin 4) (h : Fin 32), ∃ t : Fin grid0.N, win0_3.index t = ![g.val, h.val])

/-! ## What a point writes back -/

/-- If the three loaded blocks agree with the arrays `X`, `W`, `B` along row `p`, row `q` and at column `q` — read
    at the array entry `i`'s row and column —, the body's value at (p, q) is `dense X W B i`. -/
theorem entry_of_blocks (X : FVec Ideal S8192x4096 .f32) (W : FVec Ideal S16384x4096 .f32) (B : FVec Ideal S16384 .f32)
    (xb : Vec Ideal S2048x4096 .bf16) (wb : Vec Ideal S512x4096 .f32) (bb : Vec Ideal S1x512 .f32)
    (i : S8192x16384.Idx) (p : Fin 2048) (q : Fin 512)
    (hx : ∀ k : Fin 4096, xb (ix2 p k) = X (ix2 (i 0) k)) (hw : ∀ k : Fin 4096, wb (ix2 q k) = W (ix2 (i 1) k))
    (hb : bb (ix2 (0 : Fin 1) q) = B (ix1 (i 1))) :
    (∑ k : Fin 4096, xb (ix2 p k) * wb (ix2 q k)) + bb (ix2 (0 : Fin 1) q) = dense X W B i := by
  unfold dense
  simp only [hx, hw, hb]

/-- WHAT POINT `t` WRITES BACK is block `t` of `dense` of the argument arrays. -/
theorem flushed_eq (c : Dev nD) (t : Fin cfg0.N) :
    (dats m 0 c).flushed 3 t = ((cfg0.win 3).blk t).view.read (Elt Ideal)
      (dense (m ((c : Thread nD τ).loc main_arg0)) (m ((c : Thread nD τ).loc main_arg1)) (m ((c : Thread nD τ).loc main_arg2))) := by
  rw [flushed3]
  unfold out0_3
  rw [View.canon_unit_zero zero_offsets]
  simp only [View.ld_unit_zero (S := S512x4096) zero_offsets, View.ld_unit_zero (S := S2048x4096) zero_offsets,
    View.ld_unit_zero (S := S1x512) zero_offsets]
  obtain ⟨e0, e1, e2, e3, e4, e5⟩ := block_indices t
  funext j
  obtain ⟨p, q, rfl⟩ : ∃ (p : Fin 2048) (q : Fin 512), j = ix2 p q := ⟨j 0, j 1, eq_ix2 j⟩
  show k0_pay1 (iblk m c 1 t) (iblk m c 0 t) (iblk m c 2 t) (ix2 p q)
    = dense (m ((c : Thread nD τ).loc main_arg0)) (m ((c : Thread nD τ).loc main_arg1)) (m ((c : Thread nD τ).loc main_arg2))
        (((cfg0.win 3).blk t).view.emb (ix2 p q))
  refine (Body.pay_apply (iblk m c 1 t) (iblk m c 0 t) (iblk m c 2 t) p q).trans ?_
  refine entry_of_blocks _ _ _ (iblk m c 0 t) (iblk m c 1 t) (iblk m c 2 t) _ p q (fun k => ?_) (fun k => ?_) ?_
  · show V m c main_v0 (((cfg0.win 0).blk t).view.emb (ix2 p k)) = _
    rw [found_x]
    refine congrArg (m ((c : Thread nD τ).loc main_arg0)) (funext fun a => Fin.ext ?_)
    match a with
    | ⟨0, _⟩ => show win0_0.index t (0 : Fin 2) * 2048 + 1 * p.val = win0_3.index t (0 : Fin 2) * 2048 + 1 * p.val; omega
    | ⟨1, _⟩ => show win0_0.index t (1 : Fin 2) * 4096 + 1 * k.val = k.val; omega
  · show V m c main_arg1 (((cfg0.win 1).blk t).view.emb (ix2 q k)) = _
    rw [V_main_arg1]
    refine congrArg (m ((c : Thread nD τ).loc main_arg1)) (funext fun a => Fin.ext ?_)
    match a with
    | ⟨0, _⟩ => show win0_1.index t (0 : Fin 2) * 512 + 1 * q.val = win0_3.index t (1 : Fin 2) * 512 + 1 * q.val; omega
    | ⟨1, _⟩ => show win0_1.index t (1 : Fin 2) * 4096 + 1 * k.val = k.val; omega
  · show V m c main_v1 (((cfg0.win 2).blk t).view.emb (ix2 (0 : Fin 1) q)) = _
    rw [found_b]
    have hcol : win0_3.index t (1 : Fin 2) * 512 + 1 * q.val < 16384 := (((cfg0.win 3).blk t).view.emb (ix2 p q) 1).isLt
    have hidx : ((cfg0.win 2).blk t).view.emb (ix2 (0 : Fin 1) q)
        = ix2 (0 : Fin 1) (⟨win0_3.index t (1 : Fin 2) * 512 + 1 * q.val, hcol⟩ : Fin 16384) := by
      funext a; apply Fin.ext
      match a with
      | ⟨0, _⟩ => show win0_2.index t (0 : Fin 2) * 1 + 1 * 0 = 0; omega
      | ⟨1, _⟩ => show win0_2.index t (1 : Fin 2) * 512 + 1 * q.val = win0_3.index t (1 : Fin 2) * 512 + 1 * q.val; omega
    rw [hidx, shapeCast_a_1a_apply]
    refine congrArg (m ((c : Thread nD τ).loc main_arg2)) (funext fun a => Fin.ext ?_)
    match a with
    | ⟨0, _⟩ => rfl

/-! ## The blocks cover the array -/

/-- An entry of the output is in point `t`'s block iff each coordinate is in the block's range on its axis. -/
theorem mem_block (t : Fin cfg0.N) (i : S8192x16384.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v2).slice (win0_3.rect t)).set ↔ _
  rw [View.set_slice_whole, Rect.mem_set_unit]
  exact Iff.rfl

/-- Entry (r, s) lies in the block of the point whose output block is (r / 2048, s / 512). -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := block_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-! ## The array after the run, and the run -/

/-- After the run the output array is `dense` of the argument arrays. -/
theorem final (c : Dev nD) : (dats m 0 c).arrAt 3 cfg0.N
    = dense (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program ends with the output at `dense` of the arguments and the
    arguments unchanged. -/
theorem run : θ_run defs (onTc (τ := τ) (main (F := Ideal))) ⟨m, fun _ => 0, ρ⟩ fun r => ∀ c : Dev nD,
      r.2.mem ((c : Thread nD τ).loc main_v2)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  A dense layer on the TensorCore against its jnp reference, equal over the extended reals.

  The kernel tiles the 8192 × 16384 output into 2048 × 512 blocks on a 4 × 32 grid. At a grid point it multiplies a
  2048 × 4096 block of the activations by the rows of a 512 × 4096 block of the weight matrix, into a zero accumulator,
  and adds the matching 512 entries of the bias to every row. The activations are narrowed to a short float format
  on the host before the call and the weights inside the body; over the extended reals a change of format is the
  identity, so each output entry is

      out (r, c) = (∑ k, x (r, k) · w (c, k)) + b c,

  the whole contraction axis in one block, with nothing accumulated across grid points. The reference transposes the
  weight matrix, takes the product of the activations with the transpose, and adds the bias broadcast down the rows:
  the same sum with the weight's two coordinates named the other way round, plus the same bias entry. Both sides are
  the one function `Cert.Dense.dense` of the three arguments (Proof/Dense.lean); the reference's five operations read
  at an entry give it (Proof/Reference.lean), the body's stored value at an entry of its block gives it blockwise
  (Proof/Body.lean), and the blocks tile the output (Proof/Whole.lean). No step moves a factor across the sum or
  cancels anything, so the finiteness of the inputs is never used. The idealized kernel is the printed kernel read
  over the extended reals with no operation rewritten, so there is nothing to preserve.
-/
import proofs.«149816_g33887291965657_cont_8to1_b_748_4_alg».proof.Defs
import proofs.«149816_g33887291965657_cont_8to1_b_748_4_alg».proof.Proof.Gen.Kernel
import proofs.«149816_g33887291965657_cont_8to1_b_748_4_alg».proof.Proof.Gen.Kernel.Skeleton
import proofs.«149816_g33887291965657_cont_8to1_b_748_4_alg».proof.Proof.Gen.Kernel.Launch
import proofs.«149816_g33887291965657_cont_8to1_b_748_4_alg».proof.Proof.Gen.Kernel.Points
import proofs.«149816_g33887291965657_cont_8to1_b_748_4_alg».proof.Proof.Gen.Kernel.Frame
import proofs.«149816_g33887291965657_cont_8to1_b_748_4_alg».proof.Proof.Gen.KernelIdeal
import proofs.«149816_g33887291965657_cont_8to1_b_748_4_alg».proof.Proof.Gen.KernelIdeal.Skeleton
import proofs.«149816_g33887291965657_cont_8to1_b_748_4_alg».proof.Proof.Gen.KernelIdeal.Launch
import proofs.«149816_g33887291965657_cont_8to1_b_748_4_alg».proof.Proof.Gen.KernelIdeal.Points
import proofs.«149816_g33887291965657_cont_8to1_b_748_4_alg».proof.Proof.Gen.KernelIdeal.Frame
import proofs.«149816_g33887291965657_cont_8to1_b_748_4_alg».proof.Proof.Gen.ReferenceIdeal
import proofs.«149816_g33887291965657_cont_8to1_b_748_4_alg».proof.Proof.Gen.KernelIdeal.Value
import proofs.«149816_g33887291965657_cont_8to1_b_748_4_alg».proof.Proof.Gen.ReferenceIdeal.Run
import proofs.«149816_g33887291965657_cont_8to1_b_748_4_alg».proof.Proof.Gen.ReferenceIdeal.Read
import proofs.«149816_g33887291965657_cont_8to1_b_748_4_alg».proof.Proof.Gen.Pre_finite_inputs
import proofs.«149816_g33887291965657_cont_8to1_b_748_4_alg».proof.Proof.Reference
import proofs.«149816_g33887291965657_cont_8to1_b_748_4_alg».proof.Proof.Whole
import Idealize.ShloMosaic.Adequacy
import Idealize.ShloMosaic.Init

noncomputable section

namespace Cert.Proof

open Idealize.ShloMosaic Idealize.ShloMosaic.TcCoe Idealize.SL.Sem

/-- The reference runs to its operations' composed value; dropping the value leaves the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the idealized kernel ends with its output at `dense` of them
    (the blocks tile the array) and the reference ends with its result at its five operations' value, which is
    `dense` of the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsDense.val_eq_dense,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
